-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S2048x512, .f32⟩
  | .local _ .vmem, ⟨1, _⟩ => ⟨S2048x512, .f32⟩
  | .local _ .vmem, ⟨2, _⟩ => ⟨S512x1024, .f32⟩
  | .local _ .vmem, ⟨3, _⟩ => ⟨S512x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v18 : BitVec 1 := Scalar.cmpi .eq arg2 c7_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x4096.size a
  hwx0_2 : ∀ i : grid0.Coords, EltTy.bits .f32 = 32 ∨ (Rect.block (s := S8192x4096) S2048x1024.size (cc0_transform_2 i) (hinb0_2 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .i1⟩
  | .hbm, ⟨5, _⟩ => ⟨S_, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The mathematics of the binarized matmul, apart from either program.

  Both programs compute, for an activation matrix `X` [8192, 4096] and a weight matrix `W` [4096, 4096],
  the product of `X` with the BINARIZED weights: entry (r, c) of the result is
  `∑ k, X[r, k] · bin(W[k, c])`, where `bin w` is `1` if `w > 1/2` and `0` otherwise (the selection the two
  programs spell with the same three float words). The kernel reaches this sum block by block along the
  contracted axis (eight blocks of 512), each block's partial sum added to an accumulator that starts at zero;
  the reference adds `W + (bin W − W)` back together before one whole product. Two facts join them:

  * on a REAL weight `w` the straight-through spelling `w + (bin w − w)` is `bin w` (it is not on `±∞`, where
    `w − w` is not zero: this is where finiteness of the weights is used);
  * a sum over `Fin 4096` is the sum over eight consecutive blocks of 512 of the blocks' sums (addition of
    extended reals is commutative and associative, so this needs no finiteness).
-/
import Idealize.ShloMosaic.PureOps.Ideal
import Idealize.ShloMosaic.PureOps.Ideal.Laws
import Idealize.ShloMosaic.Lib.ValueIdx
import Idealize.ShloMosaic.Lib.IdealHost
import Mathlib.Algebra.BigOperators.Fin
import Mathlib.Logic.Equiv.Fin.Basic

noncomputable section

namespace Cert.BinMatmul

open Idealize.ShloMosaic Idealize.ShloMosaic.ValueIdx

/-- The binarization of one weight, as both programs spell it at the ideal instance: compare with the word of
    `0.5` (ordered, greater than), select the word of `1.0` or the word of `0.0`. -/
def bin (w : EReal) : EReal :=
  Scalar.select (FloatOps.cmpf (F := Ideal) (φ := .f32) .ogt w (FloatOps.ofBits (F := Ideal) .f32 0x3F000000#32))
    (FloatOps.ofBits (F := Ideal) .f32 0x3F800000#32) (FloatOps.ofBits (F := Ideal) .f32 0x00000000#32)

/-- The selected value is one of the two words, hence a real number. -/
theorem bin_real (w : EReal) : ∃ b : ℝ, bin w = (b : EReal) := by
  unfold bin Scalar.select
  split
  · exact ⟨1, by rw [Ideal.ofBits_def, Ideal.ofBits_one_f32]; norm_cast⟩
  · exact ⟨0, by rw [Ideal.ofBits_def, Ideal.ofBits_zero_f32]; norm_cast⟩

/-- THE STRAIGHT-THROUGH LAW: on a real weight, adding back the difference to the binarized weight gives the
    binarized weight, `w + (bin w − w) = bin w`. -/
theorem add_bin_sub (w : ℝ) : (w : EReal) + (bin (w : EReal) - (w : EReal)) = bin (w : EReal) := by
  obtain ⟨b, hb⟩ := bin_real (w : EReal)
  rw [hb, ← EReal.coe_sub, ← EReal.coe_add]
  exact congrArg _ (by ring)

/-- The result both programs compute: entry (r, c) is the sum over the contracted axis of the activation times
    the binarized weight. -/
def result (X : (⟨2, ![8192, 4096]⟩ : Shape).Idx → EReal) (W : (⟨2, ![4096, 4096]⟩ : Shape).Idx → EReal) :
    (⟨2, ![8192, 4096]⟩ : Shape).Idx → EReal :=
  fun i => ∑ k : Fin 4096, X (ix2 (i 0) k) * bin (W (ix2 k (i 1)))

/-- A sum over the 4096 contracted positions is the sum, over the eight blocks of 512 in order, of each block's
    sum: position `512·s + kk` is position `kk` of block `s`. -/
theorem sum_blocks (T : Fin 4096 → EReal) (H : ℕ → Fin 512 → EReal)
    (hH : ∀ (s : Fin 8) (kk : Fin 512), H s.val kk = T ⟨512 * s.val + kk.val, by have := s.isLt; have := kk.isLt; omega⟩) :
    ∑ s ∈ Finset.range 8, ∑ kk : Fin 512, H s kk = ∑ k : Fin 4096, T k := by
  rw [Finset.sum_range (fun s => ∑ kk : Fin 512, H s kk)]
  rw [← Equiv.sum_comp (finProdFinEquiv : Fin 8 × Fin 512 ≃ Fin 4096) T, Fintype.sum_prod_type]
  refine Finset.sum_congr rfl fun s _ => Finset.sum_congr rfl fun kk _ => ?_
  rw [hH]
  congr 1
  apply Fin.ext
  show 512 * s.val + kk.val = kk.val + 512 * s.val
  omega

end Cert.BinMatmul

end
-- ==== Proof.Payload.lean ====
/-
  The kernel body's arithmetic, read at an index at the ideal instance.

  The body stores two values into its accumulator: the zero splat (at the first block of the contracted axis),
  and `acc + A·bin(B)` where `A` [2048, 512] is the activations' block, `B` [512, 1024] the weights' block and the
  product is the matrix unit's into a zero accumulator. At the ideal instance a change of float format is the
  identity, the matrix product into zero is the plain sum over the contracted axis, and the compare-and-select
  on the weights' block is `bin` of each entry. So entry (r, c) of the second value is
  `acc[r, c] + ∑ kk, A[r, kk] · bin(B[kk, c])`.
-/
import proofs.«166204_j18889266168358_1_alg».proof.Proof.Gen.KernelIdeal.Skeleton
import proofs.«166204_j18889266168358_1_alg».proof.Proof.Spec
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx Cert.BinMatmul

/-! ## The matrix product's operand indices: (r, kk) on the left, (kk, c) on the right -/

theorem lhs_0 (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl
theorem lhs_1 (i : S2048x1024.Idx) (q : dot_S2048x512_S512x1024_S2048x1024_1_0_0_1_n_n.contr.Idx) :
    (dot_S2048x512_S512x1024_S2048x1024_1_0_0_1_n_n.lhsIdx i q 1).val = (q ⟨0, by decide⟩).val :=
  dot_S2048x512_S512x1024_S2048x1024_1_0_0_1_n_n.lhsIdx_val_of_single rfl i q
theorem rhs_0 (i : S2048x1024.Idx) (q : dot_S2048x512_S512x1024_S2048x1024_1_0_0_1_n_n.contr.Idx) :
    (dot_S2048x512_S512x1024_S2048x1024_1_0_0_1_n_n.rhsIdx i q 0).val = (q ⟨0, by decide⟩).val :=
  dot_S2048x512_S512x1024_S2048x1024_1_0_0_1_n_n.rhsIdx_val_of_single rfl i q
theorem rhs_1 (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl

/-- The product of a [2048, 512] block with a [512, 1024] block into the zero accumulator, at (r, c): the sum over
    the 512 contracted positions. -/
theorem matmul_zero_apply (a : FVec Ideal S2048x512 .bf16) (b : FVec Ideal S512x1024 .bf16) (y : S2048x1024.Idx) :
    matmul dot_S2048x512_S512x1024_S2048x1024_1_0_0_1_n_n none a b (constant S2048x1024 .f32 0x00000000#32) y
      = ∑ kk : Fin 512, a (ix2 (y 0) kk) * b (ix2 kk (y 1)) := by
  show FloatOps.matmul dot_S2048x512_S512x1024_S2048x1024_1_0_0_1_n_n none a b (constant S2048x1024 .f32 0x00000000#32) y = _
  rw [Ideal.matmul_constant_zero_apply, ← Equiv.sum_comp (ValueIdx.contrEquiv1 dot_S2048x512_S512x1024_S2048x1024_1_0_0_1_n_n 512 rfl rfl).symm]
  refine Finset.sum_congr rfl fun k _ => ?_
  have hk := ValueIdx.contrEquiv1_symm_val dot_S2048x512_S512x1024_S2048x1024_1_0_0_1_n_n 512 rfl rfl k
  have el : dot_S2048x512_S512x1024_S2048x1024_1_0_0_1_n_n.lhsIdx y ((ValueIdx.contrEquiv1 dot_S2048x512_S512x1024_S2048x1024_1_0_0_1_n_n 512 rfl rfl).symm k) = ix2 (y 0) k := funext fun d => Fin.ext (by
    match d with
    | ⟨0, _⟩ => exact lhs_0 _ _
    | ⟨1, _⟩ => exact (lhs_1 _ _).trans hk)
  have er : dot_S2048x512_S512x1024_S2048x1024_1_0_0_1_n_n.rhsIdx y ((ValueIdx.contrEquiv1 dot_S2048x512_S512x1024_S2048x1024_1_0_0_1_n_n 512 rfl rfl).symm k) = ix2 k (y 1) := funext fun d => Fin.ext (by
    match d with
    | ⟨0, _⟩ => exact (rhs_0 _ _).trans hk
    | ⟨1, _⟩ => exact rhs_1 _ _)
  rw [el, er]
  rfl

/-! ## The two stored values -/

/-- The value stored at the first block: zero everywhere. -/
theorem reset_apply (y : S2048x1024.Idx) : k0_pay1 (F := Ideal) y = 0 := by
  unfold k0_pay1
  rw [shapeCast_self]
  exact Ideal.ofBits_zero_f32

/-- The value stored at every block: the accumulator plus the block product with the binarized weights. -/
theorem step_apply (x0 : Vec Ideal S2048x512 .f32) (x1 : Vec Ideal S512x1024 .f32) (acc : Vec Ideal S2048x1024 .f32)
    (y : S2048x1024.Idx) :
    k0_pay2 x0 x1 acc y = acc y + ∑ kk : Fin 512, x0 (ix2 (y 0) kk) * bin (x1 (ix2 kk (y 1))) := by
  unfold k0_pay2
  rw [shapeCast_self]
  show (acc y : EReal) + matmul (F := Ideal) dot_S2048x512_S512x1024_S2048x1024_1_0_0_1_n_n none _ _ (constant (F := Ideal) S2048x1024 .f32 0x00000000#32) y = _
  rw [matmul_zero_apply]
  rfl

end Cert.KernelIdeal.Payload

end
-- ==== Proof.Blocks.lean ====
/-
  The windows' blocks, read at an index of the whole arrays.

  The grid is 4 × 4 × 8: point `t` is (t / 32, (t / 8) % 4, t % 8) = (row block, column block, contracted block).
  The activations' window follows (row block, contracted block) with blocks of 2048 × 512; the weights' window
  (contracted block, column block) with blocks of 512 × 1024; the result's window (row block, column block)
  with blocks of 2048 × 1024. A block's entry (a, b) is the array's entry (index₀ · size₀ + a, index₁ · size₁ + b).
-/
import proofs.«166204_j18889266168358_1_alg».proof.Proof.Gen.KernelIdeal.Frame
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The three index maps over the grid, in closed form (decided at its 128 points). -/
theorem index_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = t.val / 32 ∧ win0_2.index t (1 : Fin 2) = t.val / 8 % 4 :=
  (by decide +kernel : ∀ t : Fin grid0.N, _)

/-- The grid has 128 points. -/
theorem N_eq : cfg0.N = 128 := N_0

/-- The activations' block at point `t`, at its literal type. -/
abbrev ablk (c : Dev nD) (t : Fin cfg0.N) : Vec F S2048x512 .f32 := iblk m c 0 t
/-- The weights' block at point `t`, at its literal type. -/
abbrev bblk (c : Dev nD) (t : Fin cfg0.N) : Vec F S512x1024 .f32 := iblk m c 1 t

/-- Entry (r, kk) of the activations' block at `t` is entry (2048·(t/32) + r, 512·(t%8) + kk) of the activations. -/
theorem ablk_apply (c : Dev nD) (t : Fin cfg0.N) (r : Fin 2048) (kk : Fin 512)
    (R : Fin 8192) (K : Fin 4096) (hR : R.val = 2048 * (t.val / 32) + r.val) (hK : K.val = 512 * (t.val % 8) + kk.val) :
    ablk m c t (ix2 r kk) = m ((c : Thread nD τ).loc main_arg0) (ix2 R K) := by
  obtain ⟨e0, e1, -, -, -, -⟩ := index_facts t
  unfold ablk iblk
  rw [View.read_apply]
  show V m c main_arg0 _ = m (c.tc.loc main_arg0) _
  unfold V
  congr 1
  funext a
  apply Fin.ext
  match a with
  | ⟨0, _⟩ => show win0_0.index t (0 : Fin 2) * 2048 + 1 * r.val = R.val; rw [e0, hR]; omega
  | ⟨1, _⟩ => show win0_0.index t (1 : Fin 2) * 512 + 1 * kk.val = K.val; rw [e1, hK]; omega

/-- Entry (kk, cc) of the weights' block at `t` is entry (512·(t%8) + kk, 1024·((t/8)%4) + cc) of the weights. -/
theorem bblk_apply (c : Dev nD) (t : Fin cfg0.N) (kk : Fin 512) (cc : Fin 1024)
    (K : Fin 4096) (C : Fin 4096) (hK : K.val = 512 * (t.val % 8) + kk.val) (hC : C.val = 1024 * (t.val / 8 % 4) + cc.val) :
    bblk m c t (ix2 kk cc) = m ((c : Thread nD τ).loc main_arg1) (ix2 K C) := by
  obtain ⟨-, -, e0, e1, -, -⟩ := index_facts t
  unfold bblk iblk
  rw [View.read_apply]
  show V m c main_arg1 _ = m (c.tc.loc main_arg1) _
  unfold V
  congr 1
  funext a
  apply Fin.ext
  match a with
  | ⟨0, _⟩ => show win0_1.index t (0 : Fin 2) * 512 + 1 * kk.val = K.val; rw [e0, hK]; omega
  | ⟨1, _⟩ => show win0_1.index t (1 : Fin 2) * 1024 + 1 * cc.val = C.val; rw [e1, hC]; omega

end Cert.KernelIdeal.Blocks

end
-- ==== Proof.Pieces.lean ====
/-
  What each control case of the body leaves behind, as the body's two stored values.

  The body has three cases along the contracted axis. At its first block it stores the zero splat into the
  accumulator, reads it back and stores `zero + A·bin(B)`; at a middle block it stores `acc + A·bin(B)` over the
  accumulator the block before left; at the last block it does the same and then copies the accumulator to the
  result's block. Read back, the accumulator therefore ends at the second stored value (`k0_pay2`) of the two input
  blocks and of what it held before (the zero splat `k0_pay1` in the first case), and at the last block the
  result's block holds the same value.
-/
import proofs.«166204_j18889266168358_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- Every store and load of the body is at offset (0, 0). -/
theorem hz : (![0, 0] : Fin 2 → Nat) = fun _ => 0 := funext fun a => by fin_cases a <;> rfl

/-- First block: the accumulator ends at the block product added to the zero splat. -/
theorem acc_first (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S2048x1024 .f32) (harg5 : arg5.IsWhole) (arg6 : Memref sig .tc .vmem S2048x1024 .f32) (harg6 : arg6.IsWhole) (hc0 : cond0_0 i) (hc1 : ¬cond0_1 i)
    (x0 : Vec F S2048x512 .f32) (x1 : Vec F S512x1024 .f32) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S2048x1024) hz]
  simp only [View.readAt_eq_ld, harg3.read_unread, harg4.read_unread, harg6.read_unread, View.readCov_unit_zero (S := S2048x1024) _ hz, View.ld_unit_zero (S := S2048x512) hz, View.ld_unit_zero (S := S512x1024) hz, View.ld_unit_zero (S := S2048x1024) hz]

/-- Middle block: the accumulator ends at the block product added to what it held. -/
theorem acc_middle (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : ¬cond0_1 i)
    (x0 : Vec F S2048x512 .f32) (x1 : Vec F S512x1024 .f32) (xs0 : Vec F S2048x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread, View.readCov_unit_zero (S := S2048x1024) _ hz, View.ld_unit_zero (S := S2048x512) hz, View.ld_unit_zero (S := S512x1024) hz, View.ld_unit_zero (S := S2048x1024) hz]

/-- Last block: the accumulator ends at the block product added to what it held, -/
theorem acc_last (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : cond0_1 i)
    (x0 : Vec F S2048x512 .f32) (x1 : Vec F S512x1024 .f32) (xs0 : Vec F S2048x1024 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.readCov_unit_zero (S := S2048x1024) _ hz, View.ld_unit_zero (S := S2048x512) hz, View.ld_unit_zero (S := S512x1024) hz, View.ld_unit_zero (S := S2048x1024) hz]

/-- and the result's block ends at the same value: the body copies the accumulator into it. -/
theorem out_last (c : Dev nD) (i : grid0.Coords) (arg3 : Memref sig .tc .vmem S2048x512 .f32) (harg3 : arg3.IsWhole) (arg4 : Memref sig .tc .vmem S512x1024 .f32) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : cond0_1 i)
    (x0 : Vec F S2048x512 .f32) (x1 : Vec F S512x1024 .f32) (xs0 : Vec F S2048x1024 .f32) :
    out0_C_2 c i arg3 harg3 arg4 harg4 arg5 harg5 arg6 harg6 hc0 hc1 x0 x1 xs0 = k0_pay2 x0 x1 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.readCov_unit_zero (S := S2048x1024) _ hz, View.ld_unit_zero (S := S2048x512) hz, View.ld_unit_zero (S := S512x1024) hz, View.ld_unit_zero (S := S2048x1024) hz]

end Cert.KernelIdeal.Pieces

end
-- ==== Proof.KernelValue.lean ====
/-
  The kernel's result array, as one function of the argument arrays.

  Fix a row block and a column block. Along the contracted axis the accumulator starts, at the first of the eight
  blocks, at `0 + P₀` and gains `Pₛ` at block `s`, where `Pₛ[r, c] = ∑ kk, A_s[r, kk] · bin(B_s[kk, c])` is the product of
  the activations' block with the binarized weights' block. After the eighth block it holds `0 + (P₀ + … + P₇)`, and
  the body copies it to the result's block, which the pipeline writes back. The blocks `A_s`, `B_s` are consecutive
  slices of the arrays along the contracted axis, so `P₀ + … + P₇` at (r, c) is the whole sum over the 4096
  contracted positions: the entry of `X · bin(W)` at the block's row and column. The sixteen written-back blocks tile
  the result array.
-/
import proofs.«166204_j18889266168358_1_alg».proof.Proof.Gen.KernelIdeal.Value
import proofs.«166204_j18889266168358_1_alg».proof.Proof.Spec
import proofs.«166204_j18889266168358_1_alg».proof.Proof.Payload
import proofs.«166204_j18889266168358_1_alg».proof.Proof.Blocks
import proofs.«166204_j18889266168358_1_alg».proof.Proof.Pieces
import Idealize.ShloMosaic.Lib.Pipeline.Value
import Idealize.ShloMosaic.Lib.ValueIdx

noncomputable section

namespace Cert.KernelIdeal.Fold

open Cert.KernelIdeal Cert.KernelIdeal.Gen Cert.KernelIdeal.Blocks Cert.BinMatmul
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The activations as launched. -/
abbrev acts (c : Dev nD) : S8192x4096.Idx → EReal := m ((c : Thread nD τ).loc main_arg0)
/-- The weights as launched. -/
abbrev wts (c : Dev nD) : S4096x4096.Idx → EReal := m ((c : Thread nD τ).loc main_arg1)

/-! ## One block's product -/

/-- One product of the block pair at point `n`: activation (r, kk) times the binarized weight (kk, c); zero past
    the grid, where it is never used. -/
def term (c : Dev nD) (y : S2048x1024.Idx) (n : ℕ) (kk : Fin 512) : EReal :=
  if h : n < cfg0.N then ablk m c ⟨n, h⟩ (ix2 (y 0) kk) * bin (bblk m c ⟨n, h⟩ (ix2 kk (y 1))) else 0

/-- The product of the block pair at point `n`, at (r, c). -/
def addend (c : Dev nD) (n : ℕ) (y : S2048x1024.Idx) : EReal := ∑ kk : Fin 512, term m c y n kk

/-- The body's stored value at point `n` is the accumulator plus that product. -/
theorem step_eq (c : Dev nD) (n : ℕ) (h : n < cfg0.N) (acc : Vec Ideal S2048x1024 .f32) (y : S2048x1024.Idx) :
    k0_pay2 (ablk m c ⟨n, h⟩) (bblk m c ⟨n, h⟩) acc y = acc y + addend m c n y := by
  rw [Payload.step_apply]
  unfold addend
  refine congrArg (fun z : EReal => acc y + z) (Finset.sum_congr rfl fun kk _ => ?_)
  unfold term
  rw [dif_pos h]

/-! ## The accumulator after each point -/

/-- At the first block of a run the accumulator is left at zero plus the block's product. -/
theorem scAt_first (c : Dev nD) (n : ℕ) (h : n < cfg0.N) (h0 : n % 8 = 0) (acc : Vec Ideal S2048x1024 .f32)
    (y : S2048x1024.Idx) : Value.scAt0_0 m c n h acc y = 0 + addend m c n y := by
  have h1 : ¬n % 8 = 7 := by omega
  unfold Value.scAt0_0
  rw [dif_pos h0, dif_neg h1]
  refine (congrFun (Pieces.acc_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) ((hcond0_0 ⟨n, h⟩).mpr h0) (fun hh => h1 ((hcond0_1 ⟨n, h⟩).mp hh)) (ablk m c ⟨n, h⟩) (bblk m c ⟨n, h⟩)) y).trans ?_
  rw [step_eq, Payload.reset_apply]

/-- At every later block it gains the block's product. -/
theorem scAt_next (c : Dev nD) (n : ℕ) (h : n < cfg0.N) (h0 : ¬n % 8 = 0) (acc : Vec Ideal S2048x1024 .f32)
    (y : S2048x1024.Idx) : Value.scAt0_0 m c n h acc y = acc y + addend m c n y := by
  unfold Value.scAt0_0
  rw [dif_neg h0]
  by_cases h1 : n % 8 = 7
  · rw [dif_pos h1]
    exact (congrFun (Pieces.acc_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) (fun hh => h0 ((hcond0_0 ⟨n, h⟩).mp hh)) ((hcond0_1 ⟨n, h⟩).mpr h1) (ablk m c ⟨n, h⟩) (bblk m c ⟨n, h⟩) acc) y).trans (step_eq m c n h acc y)
  · rw [dif_neg h1]
    exact (congrFun (Pieces.acc_middle (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) (fun hh => h0 ((hcond0_0 ⟨n, h⟩).mp hh)) (fun hh => h1 ((hcond0_1 ⟨n, h⟩).mp hh)) (ablk m c ⟨n, h⟩) (bblk m c ⟨n, h⟩) acc) y).trans (step_eq m c n h acc y)

/-- THE ACCUMULATOR after point `t`: zero plus the products of the blocks of its run up to `t`. -/
theorem acc_apply (c : Dev nD) (t : Fin cfg0.N) (y : S2048x1024.Idx) :
    (outsAt0 m c t.val t.isLt).2 y = 0 + ∑ s ∈ Finset.range (t.val % 8 + 1), addend m c (8 * (t.val / 8) + s) y := by
  rw [Value.soutsAt0_0_eq m c t]
  exact Pipeline.accAt_add_apply (ι := S2048x1024.Idx) (β := EReal) _ _ (fun _ => 0) (addend m c) (8 * (t.val / 8)) 7
    (fun h y => scAt_first m c _ h (by omega) _ y)
    (fun n h acc y hlt hle => scAt_next m c n h (by omega) acc y)
    (t.val % 8) (by omega) _ y

/-! ## Eight blocks' products are the whole contraction -/

/-- The products of the eight blocks of run `q` (row block `q / 4`, column block `q % 4`) add up, at (r, c), to the
    entry of `X · bin(W)` at row `2048·(q/4) + r` and column `1024·(q%4) + c`. -/
theorem run_sum (c : Dev nD) (q : ℕ) (hq : q < 16) (y : S2048x1024.Idx) (R : Fin 8192) (C : Fin 4096)
    (hR : R.val = 2048 * (q / 4) + (y 0).val) (hC : C.val = 1024 * (q % 4) + (y 1).val) :
    ∑ s ∈ Finset.range 8, addend m c (8 * q + s) y = result (acts m c) (wts m c) (ix2 R C) := by
  unfold addend
  refine sum_blocks (fun k => acts m c (ix2 R k) * bin (wts m c (ix2 k C))) (fun s kk => term m c y (8 * q + s) kk) ?_
  intro s kk
  have hs := s.isLt
  have hk := kk.isLt
  have hN : 8 * q + s.val < cfg0.N := by rw [N_eq]; omega
  unfold term
  rw [dif_pos hN,
    ablk_apply m c ⟨8 * q + s.val, hN⟩ (y 0) kk R ⟨512 * s.val + kk.val, by omega⟩
      (by show R.val = 2048 * ((8 * q + s.val) / 32) + (y 0).val; omega)
      (by show 512 * s.val + kk.val = 512 * ((8 * q + s.val) % 8) + kk.val; omega),
    bblk_apply m c ⟨8 * q + s.val, hN⟩ kk (y 1) ⟨512 * s.val + kk.val, by omega⟩ C
      (by show 512 * s.val + kk.val = 512 * ((8 * q + s.val) % 8) + kk.val; omega)
      (by show C.val = 1024 * ((8 * q + s.val) / 8 % 4) + (y 1).val; omega)]

/-! ## What is written back, and where -/

/-- At the last block of a run the result's block holds what the accumulator holds. -/
theorem out_eq_acc (c : Dev nD) (t : Fin cfg0.N) (h0 : ¬t.val % 8 = 0) (h7 : t.val % 8 = 7) :
    (outsAt0 m c t.val t.isLt).1 = (outsAt0 m c t.val t.isLt).2 := by
  rw [outsAt0_C m c t h0 h7]
  dsimp only
  exact (Pieces.out_last (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h7) (iblk m c 0 t) (iblk m c 1 t) _).trans
    (Pieces.acc_last (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h7) (iblk m c 0 t) (iblk m c 1 t) _).symm

/-- An index of the result array is in point `t`'s block iff each coordinate is in the block's range on its axis. -/
theorem mem_blk (t : Fin cfg0.N) (i : S8192x4096.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v0).slice (win0_2.rect t)).set ↔ _
  rw [View.set_slice_whole, Rect.mem_set_unit]
  exact Iff.rfl

/-- WHAT A WRITING POINT WRITES BACK is its block of `X · bin(W)`. -/
theorem flushed_eq (c : Dev nD) (t : Fin cfg0.N) (hf : (cfg0.win 2).flush t = true) :
    (dats m 0 c).flushed 2 t = ((cfg0.win 2).blk t).view.read (Elt Ideal) (result (acts m c) (wts m c)) := by
  have h7 : t.val % 8 = 7 := (flush0_2 t).mp hf
  have h0 : ¬t.val % 8 = 0 := by omega
  have hN : t.val < 128 := lt_of_lt_of_eq t.isLt N_eq
  obtain ⟨-, -, -, -, e0, e1⟩ := index_facts t
  rw [Value.flushed2 m c t, out_eq_acc m c t h0 h7]
  funext j
  rw [View.read_apply, eq_ix2 (((cfg0.win 2).blk t).view.emb j)]
  refine (acc_apply m c t ((cfg0.win 2).xinj (grid0.coords t) j)).trans ?_
  rw [h7, zero_add]
  refine run_sum m c (t.val / 8) (by omega) _ _ _ ?_ ?_
  · show win0_2.index t (0 : Fin 2) * 2048 + 1 * (j 0).val = 2048 * (t.val / 8 / 4) + (j 0).val
    rw [e0]; omega
  · show win0_2.index t (1 : Fin 2) * 1024 + 1 * (j 1).val = 1024 * (t.val / 8 % 4) + (j 1).val
    rw [e1]; omega

/-- Every index of the result array is in the block of some writing point: row block `r / 2048`, column block
    `c / 1024`, at the last block of the contracted axis. -/
theorem cover (i : S8192x4096.Idx) :
    ∃ t : Fin cfg0.N, (cfg0.win 2).flush t = true ∧ i ∈ ((cfg0.win 2).blk t).view.set := by
  have hi0 : (i 0).val < 8192 := idx2_lt0 i
  have hi1 : (i 1).val < 4096 := idx2_lt1 i
  obtain ⟨tv, htv⟩ : ∃ tv : ℕ, tv = 32 * ((i 0).val / 2048) + 8 * ((i 1).val / 1024) + 7 := ⟨_, rfl⟩
  have hlt : tv < cfg0.N := by rw [N_eq]; omega
  obtain ⟨-, -, -, -, e0, e1⟩ := index_facts ⟨tv, hlt⟩
  refine ⟨⟨tv, hlt⟩, (flush0_2 _).mpr (by show tv % 8 = 7; omega), ?_⟩
  rw [mem_blk]
  intro a
  match a with
  | ⟨0, _⟩ =>
    show win0_2.index ⟨tv, hlt⟩ (0 : Fin 2) * 2048 ≤ (i 0).val ∧ (i 0).val < win0_2.index ⟨tv, hlt⟩ (0 : Fin 2) * 2048 + 2048
    rw [e0]; show tv / 32 * 2048 ≤ (i 0).val ∧ (i 0).val < tv / 32 * 2048 + 2048; omega
  | ⟨1, _⟩ =>
    show win0_2.index ⟨tv, hlt⟩ (1 : Fin 2) * 1024 ≤ (i 1).val ∧ (i 1).val < win0_2.index ⟨tv, hlt⟩ (1 : Fin 2) * 1024 + 1024
    rw [e1]; show tv / 8 % 4 * 1024 ≤ (i 1).val ∧ (i 1).val < tv / 8 % 4 * 1024 + 1024; omega

/-- THE RESULT ARRAY after the run is `X · bin(W)`. -/
theorem final (c : Dev nD) : (dats m 0 c).arrAt 2 cfg0.N = result (acts m c) (wts m c) :=
  (dats m 0 c).arrAt_eq_of_cover 2 (result (acts m c) (wts m c)) (flushed_eq m c) cover

/-- The kernel's run: the result array ends at `X · bin(W)` of the arguments as launched, the arguments unchanged. -/
theorem run : θ_run defs (onTc (τ := τ) (main (F := Ideal))) ⟨m, fun _ => 0, ρ⟩ fun r => ∀ c : Dev nD,
      r.2.mem ((c : Thread nD τ).loc main_v0) = result (acts m c) (wts m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Fold

end
-- ==== Proof.RefValue.lean ====
/-
  The reference's result, as the same function of the argument arrays.

  The reference binarizes the weights with the same compare-and-select, spells the straight-through estimator
  `W + (bin W − W)`, and takes one whole product with the activations. On real weights the estimator's value is
  `bin W` (the straight-through law), so entry (r, c) of the product is `∑ k, X[r, k] · bin(W[k, c])`.
-/
import proofs.«166204_j18889266168358_1_alg».proof.Proof.Gen.ReferenceIdeal.Read
import proofs.«166204_j18889266168358_1_alg».proof.Proof.Spec

noncomputable section

namespace Cert.ReferenceIdeal.RefValue

open Cert.ReferenceIdeal Cert.ReferenceIdeal.Gen Cert.ReferenceIdeal.Read Cert.BinMatmul
open Idealize.ShloMosaic Idealize.ShloMosaic.ValueIdx

/-- The reference's selected weights at an index: `bin` of the weight there. -/
theorem selected_apply (w : (⟨S4096x4096, .f32⟩ : BufTy).Contents (Elt Ideal)) (j : S4096x4096.Idx) :
    val_main_v3 (F := Ideal) w j = bin (w j) := by
  rw [val_main_v3_apply, val_main_v2_apply, val_main_v1_apply, val_main_v0_apply, val_main_cst_apply,
    val_main_call0_v0_apply, val_main_cst_0_apply, val_main_call0_v1_apply, val_main_cst_1_apply]
  rfl

/-- The straight-through estimator's value on real weights: again `bin` of the weight. -/
theorem estimator_apply (w : (⟨S4096x4096, .f32⟩ : BufTy).Contents (Elt Ideal))
    (hw : ∀ j, ∃ r : ℝ, w j = (r : EReal)) (j : S4096x4096.Idx) :
    val_main_v5 (F := Ideal) w j = bin (w j) := by
  rw [val_main_v5_apply, val_main_v4_apply, selected_apply]
  obtain ⟨r, hr⟩ := hw j
  rw [hr]
  exact add_bin_sub r

/-- THE REFERENCE'S RESULT on real weights is `X · bin(W)`. -/
theorem result_eq (x : (⟨S8192x4096, .f32⟩ : BufTy).Contents (Elt Ideal)) (w : (⟨S4096x4096, .f32⟩ : BufTy).Contents (Elt Ideal))
    (hw : ∀ j, ∃ r : ℝ, w j = (r : EReal)) :
    val_main_v6 (F := Ideal) x w = result x w := by
  funext i
  rw [val_main_v6_apply]
  unfold result
  refine Finset.sum_congr rfl fun k _ => ?_
  have el : lidx_main_v6 i k = ix2 (i 0) k := funext fun a => Fin.ext (by
    match a with
    | ⟨0, _⟩ => rfl
    | ⟨1, _⟩ => rfl)
  have er : ridx_main_v6 i k = ix2 k (i 1) := funext fun a => Fin.ext (by
    match a with
    | ⟨0, _⟩ => rfl
    | ⟨1, _⟩ => rfl)
  rw [estimator_apply w hw, el, er]
  rfl

end Cert.ReferenceIdeal.RefValue

end
-- ==== Proof.Finite.lean ====
/-
  From the precondition to real entries.

  The precondition says, of each argument array, that every entry's absolute value compares below the word of
  `+∞` — a `jnp.all` of the comparison, the two conjoined. An extended real whose absolute value `max x (−x)` is
  below `⊤` is neither infinity, hence a real number. Only the weights' half is needed: the straight-through law
  is applied to a weight.
-/
import proofs.«166204_j18889266168358_1_alg».proof.Pre_finite_inputs
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

instance : Subsingleton S_.Idx := ⟨fun a b => funext fun d => d.elim0⟩

/-- The word `0x7F800000` is `+∞`. -/
theorem inf_word : Ideal.ofBits .f32 0x7F800000#32 = ⊤ := by simp [Ideal.ofBits, Ideal.ieee]

/-- An extended real whose absolute value is (ordered) below `+∞` is a real number. -/
theorem real_of_abs_lt (x : EReal) (h : Ideal.cmp .olt (max x (-x)) ⊤ = 1#1) : ∃ r : ℝ, x = (r : EReal) := by
  have h' : max x (-x) < ⊤ := by
    unfold Ideal.cmp at h
    by_contra hn
    simp [hn] at h
  induction x using EReal.rec with
  | bot => simp at h'
  | coe r => exact ⟨r, rfl⟩
  | top => simp at h'

/-- Under the precondition every weight is a real number. -/
theorem weights_real [Facts] (x : FVec Ideal S8192x4096 .f32) (w : FVec Ideal S4096x4096 .f32)
    (h : fn (F := Ideal) x w = fun _ => 1#1) (j : S4096x4096.Idx) : ∃ r : ℝ, w j = (r : EReal) := by
  have h0 := congrFun h ValueIdx.ix0
  dsimp only [fn] at h0
  obtain ⟨-, h2⟩ := IntOp.andi_eq_one.1 h0
  have h3 := Host.reduce_andi_all _ _ _ _ _ h2 j
  refine real_of_abs_lt (w j) ?_
  rw [← inf_word]
  exact h3

end Cert.Finite

end
-- ==== Proof.lean ====
/-
  A linear layer with binarized weights: the K-blocked kernel against the straight-through reference.

  Both programs take activations `X` [8192, 4096] and weights `W` [4096, 4096] and return `X · bin(W)`, where
  `bin w` is `1` when `w > 1/2` and `0` otherwise — the same comparison and the same three float words on both sides.

  * The kernel walks a 4 × 4 × 8 grid. For each of the sixteen (row block, column block) pairs it zeroes an
    accumulator at the first of eight blocks of the contracted axis, adds the product of the activations' block
    with the binarized weights' block at every block, and copies the accumulator to the result's block at the last.
    At the ideal instance each block product is the plain sum over its 512 contracted positions, so the written
    block holds `0 + (P₀ + … + P₇)`, the whole contraction over 4096 positions (Proof/KernelValue.lean, over the
    body's arithmetic in Proof/Payload.lean, the cases' stored values in Proof/Pieces.lean and the blocks read at an
    index in Proof/Blocks.lean). Regrouping a finite sum of extended reals needs no finiteness.
  * The reference forms `W + (bin W − W)` and takes one whole product. On a real weight that is `bin W`; at `±∞` it
    is not (`w − w` is not zero there), and this is the one place the precondition — every input finite — is used
    (Proof/Finite.lean reads it; Proof/RefValue.lean applies the law of Proof/Spec.lean).

  The idealization rewrote nothing, so `preserves` is `True`. The kernel's two frames are its generated frame
  certificates; the reference's frame is its generated run with the result forgotten.
-/
import proofs.«166204_j18889266168358_1_alg».proof.Defs
import proofs.«166204_j18889266168358_1_alg».proof.Proof.Gen.Kernel
import proofs.«166204_j18889266168358_1_alg».proof.Proof.Gen.Kernel.Skeleton
import proofs.«166204_j18889266168358_1_alg».proof.Proof.Gen.Kernel.Launch
import proofs.«166204_j18889266168358_1_alg».proof.Proof.Gen.Kernel.Points
import proofs.«166204_j18889266168358_1_alg».proof.Proof.Gen.Kernel.Frame
import proofs.«166204_j18889266168358_1_alg».proof.Proof.Gen.KernelIdeal
import proofs.«166204_j18889266168358_1_alg».proof.Proof.Gen.KernelIdeal.Skeleton
import proofs.«166204_j18889266168358_1_alg».proof.Proof.Gen.KernelIdeal.Launch
import proofs.«166204_j18889266168358_1_alg».proof.Proof.Gen.KernelIdeal.Points
import proofs.«166204_j18889266168358_1_alg».proof.Proof.Gen.KernelIdeal.Frame
import proofs.«166204_j18889266168358_1_alg».proof.Proof.Gen.ReferenceIdeal
import proofs.«166204_j18889266168358_1_alg».proof.Proof.Gen.Pre_finite_inputs
import proofs.«166204_j18889266168358_1_alg».proof.Proof.Gen.KernelIdeal.Value
import proofs.«166204_j18889266168358_1_alg».proof.Proof.Gen.ReferenceIdeal.Run
import proofs.«166204_j18889266168358_1_alg».proof.Proof.Gen.ReferenceIdeal.Read
import proofs.«166204_j18889266168358_1_alg».proof.Proof.KernelValue
import proofs.«166204_j18889266168358_1_alg».proof.Proof.RefValue
import proofs.«166204_j18889266168358_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, with finite inputs, both programs end with `X · bin(W)`: the kernel
    by its block-by-block accumulation, the reference by the straight-through law on the (real) weights. -/
theorem algebraic : Cert.algebraic_KernelIdeal_ReferenceIdeal := by
  intro m ρ m' ρ' hpre hagree
  refine ⟨fun c => Cert.BinMatmul.result (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  have hw : ∀ j, ∃ r : ℝ, m' ((c : Thread Cert.ReferenceIdeal.nD Cert.ReferenceIdeal.τ).loc Cert.ReferenceIdeal.main_arg1) j = (r : EReal) := by
    intro j
    rw [(hagree c).2]
    exact Cert.Finite.weights_real _ _ (hpre c) j
  rw [Cert.ReferenceIdeal.Read.val_main_v6_eq, Cert.ReferenceIdeal.RefValue.result_eq _ _ hw, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
